-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x1024x512 : Shape := ⟨4, ![4, 12, 1024, 512]⟩
abbrev S1024x1024 : Shape := ⟨2, ![1024, 1024]⟩
abbrev S512x512 : Shape := ⟨2, ![512, 512]⟩
abbrev S512 : Shape := ⟨1, ![512]⟩
abbrev S_ : Shape := ⟨0, ![]⟩

class Facts : Prop where
  bcast_S_S4x12x1024x512 : S_.BroadcastsInDim S4x12x1024x512 (![] : Fin 0 → Fin S4x12x1024x512.rank)
  reducesTo_S4x12x1024x512_S_d0_1_2_3 : S4x12x1024x512.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4x12x1024x512 .f32) (main_arg1 : FVec F S1024x1024 .f32) (main_arg2 : FVec F S512x512 .f32) (main_arg3 : FVec F S512 .f32) : IVec S_ 1 :=
  let main_v0 : FVec F S4x12x1024x512 .f32 := Host.absf main_arg0
  let main_cst : FVec F S_ .f32 := constant S_ .f32 0x7F800000#32
  let main_v1 : FVec F S4x12x1024x512 .f32 := broadcastInDim S4x12x1024x512 ![] bcast_S_S4x12x1024x512 main_cst
  let main_v2 : IVec S4x12x1024x512 1 := cmpf .olt main_v0 main_v1
  let main_c : IVec S_ 1 := constantI S_ 1 1#1
  let main_v3 : IVec S_ 1 := (fun x v => Host.reduce IntOp.andi x v reducesTo_S4x12x1024x512_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4x12x1024x512 : Shape := ⟨4, ![4, 12, 1024, 512]⟩
abbrev S1024x1024 : Shape := ⟨2, ![1024, 1024]⟩
abbrev S512x512 : Shape := ⟨2, ![512, 512]⟩
abbrev S512 : Shape := ⟨1, ![512]⟩
abbrev S48x1024x512 : Shape := ⟨3, ![48, 1024, 512]⟩
abbrev S1x512 : Shape := ⟨2, ![1, 512]⟩
abbrev S8x1024x512 : Shape := ⟨3, ![8, 1024, 512]⟩
abbrev S4x1024x512 : Shape := ⟨3, ![4, 1024, 512]⟩
abbrev S1x1024x512 : Shape := ⟨3, ![1, 1024, 512]⟩
abbrev S1024x512 : Shape := ⟨2, ![1024, 512]⟩

abbrev nBuf : Space → Nat
  | .hbm => 10
  | .vmem => 7
  | .smem => 0
  | _ => 0

abbrev bufTy : (tb : Table) → Fin (tcTables nBuf tb) → BufTy
  | .hbm, ⟨0, _⟩ => ⟨S4x12x1024x512, .f32⟩
  | .hbm, ⟨1, _⟩ => ⟨S1024x1024, .f32⟩
  | .hbm, ⟨2, _⟩ => ⟨S512x512, .f32⟩
  | .hbm, ⟨3, _⟩ => ⟨S512, .f32⟩
  | .hbm, ⟨4, _⟩ => ⟨S48x1024x512, .f32⟩
  | .hbm, ⟨5, _⟩ => ⟨S1024x1024, .bf16⟩
  | .hbm, ⟨6, _⟩ => ⟨S512x512, .bf16⟩
  | .hbm, ⟨7, _⟩ => ⟨S1x512, .f32⟩
  | .hbm, ⟨8, _⟩ => ⟨S48x1024x512, .f32⟩
  | .hbm, ⟨9, _⟩ => ⟨S4x12x1024x512, .f32⟩
  | .local _ .vmem, ⟨0, _⟩ => ⟨S8x1024x512, .f32⟩
  | .local _ .vmem, ⟨1, _⟩ => ⟨S8x1024x512, .f32⟩
  | .local _ .vmem, ⟨2, _⟩ => ⟨S1024x1024, .bf16⟩
  | .local _ .vmem, ⟨3, _⟩ => ⟨S512x512, .bf16⟩
  | .local _ .vmem, ⟨4, _⟩ => ⟨S1x512, .f32⟩
  | .local _ .vmem, ⟨5, _⟩ => ⟨S4x1024x512, .f32⟩
  | .local _ .vmem, ⟨6, _⟩ => ⟨S4x1024x512, .f32⟩
  | _, _ => ⟨S4x12x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![6, 2], ![false, false]⟩

def k0_off1 (i : grid0.Coords) (c0_i32 : BitVec 32) : Fin 3 → Nat :=
  let arg1 : BitVec 32 := BitVec.ofNat 32 (i 1).val
  let c4_i32 : BitVec 32 := 4#32
  let v0 : BitVec 32 := Scalar.muli arg1 c4_i32
  let v1 : BitVec 32 := Scalar.addi v0 c0_i32
  let v2 : Index := Scalar.indexCast v1
  let c0 : Index := 0#32
  let c0_0 : Index := 0#32
  ![v2.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S8x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x12x1024x512_S48x1024x512 : S4x12x1024x512.ShapeCasts S48x1024x512
  bitsLt_bf16_f32 : FTy.bits .bf16 < FTy.bits .f32
  shapeCasts_S512_S1x512 : S512.ShapeCasts S1x512
  h_S1x1024x512 : 0 < S1x1024x512.numel
  shapeCasts_S1x1024x512_S1024x512 : S1x1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S4x1024x512_S1x1024x512_0_0_0 : ∀ a, (![0, 0, 0] : Fin 3 → Nat) a + S1x1024x512.size a ≤ S4x1024x512.size a
  shapeCasts_S1024x512_S1x1024x512 : S1024x512.ShapeCasts S1x1024x512
  inb_S4x1024x512_S1x1024x512_1_0_0 : ∀ a, (![1, 0, 0] : Fin 3 → Nat) a + S1x1024x512.size a ≤ S4x1024x512.size a
  inb_S4x1024x512_S1x1024x512_2_0_0 : ∀ a, (![2, 0, 0] : Fin 3 → Nat) a + S1x1024x512.size a ≤ S4x1024x512.size a
  inb_S4x1024x512_S1x1024x512_3_0_0 : ∀ a, (![3, 0, 0] : Fin 3 → Nat) a + S1x1024x512.size a ≤ S4x1024x512.size a
  shapeCasts_S48x1024x512_S4x12x1024x512 : S48x1024x512.ShapeCasts S4x12x1024x512
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  hrank0 : 0 < grid0.rank
  k0_off1_inb : ∀ i : grid0.Coords, ∀ (r : Fin 4), ∀ a, (k0_off1 i (BitVec.ofNat 32 r.val)) a + S1x1024x512.size a ≤ S8x1024x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x512.size a ≤ S48x1024x512.size a
  hwx0_0 : ∀ i : grid0.Coords, EltTy.bits .f32 = 32 ∨ (Rect.block (s := S48x1024x512) S8x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1024x512.size a ≤ S48x1024x512.size a
  hwx0_4 : ∀ i : grid0.Coords, EltTy.bits .f32 = 32 ∨ (Rect.block (s := S48x1024x512) S4x1024x512.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S8x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4x1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x12x1024x512 : Shape := ⟨4, ![4, 12, 1024, 512]⟩
abbrev S1024x1024 : Shape := ⟨2, ![1024, 1024]⟩
abbrev S512x512 : Shape := ⟨2, ![512, 512]⟩
abbrev S512 : Shape := ⟨1, ![512]⟩
abbrev S1024x512x4x12 : Shape := ⟨4, ![1024, 512, 4, 12]⟩
abbrev S1024x24576 : Shape := ⟨2, ![1024, 24576]⟩
abbrev S49152x512 : Shape := ⟨2, ![49152, 512]⟩
abbrev S1x512 : Shape := ⟨2, ![1, 512]⟩

abbrev nBuf : Space → Nat
  | .hbm => 15
  | .vmem => 0
  | .smem => 0
  | _ => 0

abbrev bufTy : (tb : Table) → Fin (tcTables nBuf tb) → BufTy
  | .hbm, ⟨0, _⟩ => ⟨S4x12x1024x512, .f32⟩
  | .hbm, ⟨1, _⟩ => ⟨S1024x1024, .f32⟩
  | .hbm, ⟨2, _⟩ => ⟨S512x512, .f32⟩
  | .hbm, ⟨3, _⟩ => ⟨S512, .f32⟩
  | .hbm, ⟨4, _⟩ => ⟨S1024x512x4x12, .f32⟩
  | .hbm, ⟨5, _⟩ => ⟨S1024x24576, .f32⟩
  | .hbm, ⟨6, _⟩ => ⟨S1024x24576, .f32⟩
  | .hbm, ⟨7, _⟩ => ⟨S1024x512x4x12, .f32⟩
  | .hbm, ⟨8, _⟩ => ⟨S4x12x1024x512, .f32⟩
  | .hbm, ⟨9, _⟩ => ⟨S49152x512, .f32⟩
  | .hbm, ⟨10, _⟩ => ⟨S49152x512, .f32⟩
  | .hbm, ⟨11, _⟩ => ⟨S1x512, .f32⟩
  | .hbm, ⟨12, _⟩ => ⟨S49152x512, .f32⟩
  | .hbm, ⟨13, _⟩ => ⟨S49152x512, .f32⟩
  | .hbm, ⟨14, _⟩ => ⟨S4x12x1024x512, .f32⟩
  | _, _ => ⟨S4x12x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  transposes_S4x12x1024x512_S1024x512x4x12_2_3_0_1 : S4x12x1024x512.Transposes [2, 3, 0, 1] S1024x512x4x12
  shapeCasts_S1024x512x4x12_S1024x24576 : S1024x512x4x12.ShapeCasts S1024x24576
  shapeCasts_S1024x24576_S1024x512x4x12 : S1024x24576.ShapeCasts S1024x512x4x12
  transposes_S1024x512x4x12_S4x12x1024x512_2_3_0_1 : S1024x512x4x12.Transposes [2, 3, 0, 1] S4x12x1024x512
  shapeCasts_S4x12x1024x512_S49152x512 : S4x12x1024x512.ShapeCasts S49152x512
  bcast_S512_S1x512_1 : S512.BroadcastsInDim S1x512 (![1] : Fin 1 → Fin S1x512.rank)
  bcast_S1x512_S49152x512_0_1 : S1x512.BroadcastsInDim S49152x512 (![0, 1] : Fin 2 → Fin S49152x512.rank)
  shapeCasts_S49152x512_S4x12x1024x512 : S49152x512.ShapeCasts S4x12x1024x512
  dot_S1024x1024_S1024x24576_S1024x24576_1_0_0_1_n_n_wf : DotDims.WF S1024x1024 S1024x24576 S1024x24576 [1] [0] [0] [1] [] []
  dot_S49152x512_S512x512_S49152x512_1_0_0_1_n_n_wf : DotDims.WF S49152x512 S512x512 S49152x512 [1] [0] [0] [1] [] []

variable [Facts₀]

def dot_S1024x1024_S1024x24576_S1024x24576_1_0_0_1_n_n : DotDims S1024x1024 S1024x24576 S1024x24576 where
  lhsContracting := [1]
  rhsContracting := [0]
  lhsNonContracting := [0]
  rhsNonContracting := [1]
  lhsBatch := []
  rhsBatch := []
  wf := dot_S1024x1024_S1024x24576_S1024x24576_1_0_0_1_n_n_wf
def dot_S49152x512_S512x512_S49152x512_1_0_0_1_n_n : DotDims S49152x512 S512x512 S49152x512 where
  lhsContracting := [1]
  rhsContracting := [0]
  lhsNonContracting := [0]
  rhsNonContracting := [1]
  lhsBatch := []
  rhsBatch := []
  wf := dot_S49152x512_S512x512_S49152x512_1_0_0_1_n_n_wf

class Facts : Prop extends Facts₀ where

variable [Facts]
-- ==== Proof.KernelSlices.lean ====
/-
  One slice through the kernel's body, read entry by entry over the extended reals.

  The body handles four slices of its input block one after the other, each by the same three stages: the
  adjacency (1024 × 1024) times the slice (1024 × 512), that product times the weight (512 × 512), and the bias row
  added to every row. The two changes of float format around the products are the identity over the extended reals,
  and a product into a zero accumulator is the plain sum over the contracted axis. So at entry `(n, h)` a slice `xs` gives

      (∑ k, (∑ n', a (n, n') · xs (n', k)) · w (k, h)) + b (0, h).

  The four stores' values differ only in which slice they load (and in where the intermediate values cross the cuts
  of the printed body), so all four are stated through the first one.
-/
import proofs.«127331_g62569083568837_cont_9to1_m_642_22_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Slices

open Idealize.ShloMosaic Idealize.ShloMosaic.ValueIdx Cert.KernelIdeal Cert.KernelIdeal.Gen

variable {F : FTy → Type} [FloatOps F]

/-! ## The four stores carry one value -/

/-- The third slice's value is the first's, of its own loads. -/
theorem third_eq (x : Vec F S1x1024x512 .f32) (a : Vec F S1024x1024 .bf16) (w : Vec F S512x512 .bf16) (b : Vec F S1x512 .f32) :
    k0_pay6 x a w b = k0_pay2 x a w b := rfl

/-- The second slice's value, whose first product is formed before a cut of the printed body and whose second after it. -/
theorem second_eq (x : Vec F S1x1024x512 .f32) (a : Vec F S1024x1024 .bf16) (w : Vec F S512x512 .bf16) (b : Vec F S1x512 .f32) :
    k0_pay5 (k0_pay3 x a) (k0_pay4 w) (constant S1024x512 .f32 0x00000000#32) b = k0_pay2 x a w b := rfl

/-- The fourth slice's value, whose slice is loaded before a cut and multiplied after it. -/
theorem fourth_eq (x : Vec F S1x1024x512 .f32) (a : Vec F S1024x1024 .bf16) (w : Vec F S512x512 .bf16) (b : Vec F S1x512 .f32) :
    k0_pay1 (k0_pay7 x) a w b = k0_pay2 x a w b := rfl

/-! ## The three stages on one 1024 × 512 slice -/

/-- Adjacency times slice, times weight, plus the bias row. -/
def stages (xs : FVec F S1024x512 .f32) (a : FVec F S1024x1024 .bf16) (w : FVec F S512x512 .bf16) (b : FVec F S1x512 .f32) : FVec F S1024x512 .f32 :=
  addf (matmul dot_S1024x512_S512x512_S1024x512_1_0_0_1_n_n none
      (truncf .bf16 (matmul dot_S1024x1024_S1024x512_S1024x512_1_0_0_1_n_n none a (truncf .bf16 xs bitsLt_bf16_f32) (constant S1024x512 .f32 0x00000000#32)) bitsLt_bf16_f32)
      w (constant S1024x512 .f32 0x00000000#32))
    (broadcastTo S1024x512 b broadcasts_S1x512_S1024x512)

/-- The first store's value is the stages of its loads, with the unit leading axis dropped before and put back after. -/
theorem first_eq (x : Vec F S1x1024x512 .f32) (a : Vec F S1024x1024 .bf16) (w : Vec F S512x512 .bf16) (b : Vec F S1x512 .f32) :
    k0_pay2 x a w b = shapeCast S1x1024x512 (stages (shapeCast S1024x512 x shapeCasts_S1x1024x512_S1024x512)
      (shapeCast S1024x1024 a shapeCasts_S1024x1024_S1024x1024) (shapeCast S512x512 w shapeCasts_S512x512_S512x512)
      (shapeCast S1x512 b shapeCasts_S1x512_S1x512)) shapeCasts_S1024x512_S1x1024x512 := rfl

/-! ## The two products at an entry -/

theorem adj_lhs_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem adj_lhs_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem adj_rhs_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem adj_rhs_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The adjacency product at `(n, k)`: row `n` of the adjacency against column `k` of the slice. -/
theorem adj_apply (a : FVec Ideal S1024x1024 .bf16) (xs : FVec Ideal S1024x512 .bf16) (i : S1024x512.Idx) :
    matmul dot_S1024x1024_S1024x512_S1024x512_1_0_0_1_n_n none a xs (constant S1024x512 .f32 0x00000000#32) i
      = ∑ n' : Fin 1024, a (ix2 (i 0) n') * xs (ix2 n' (i 1)) := by
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx i ((ValueIdx.contrEquiv1 dot_S1024x1024_S1024x512_S1024x512_1_0_0_1_n_n 1024 rfl rfl).symm k) = ix2 (i 0) k := funext fun d => Fin.ext (by
    match d with
    | ⟨0, _⟩ => exact adj_lhs_0 _ _
    | ⟨1, _⟩ => exact (adj_lhs_1 _ _).trans hk)
  have er : dot_S1024x1024_S1024x512_S1024x512_1_0_0_1_n_n.rhsIdx i ((ValueIdx.contrEquiv1 dot_S1024x1024_S1024x512_S1024x512_1_0_0_1_n_n 1024 rfl rfl).symm k) = ix2 k (i 1) := funext fun d => Fin.ext (by
    match d with
    | ⟨0, _⟩ => exact (adj_rhs_0 _ _).trans hk
    | ⟨1, _⟩ => exact adj_rhs_1 _ _)
  rw [el, er]
  rfl

theorem feat_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem feat_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem feat_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem feat_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The weight product at `(n, h)`: row `n` of the left factor against column `h` of the weight. -/
theorem feat_apply (l : FVec Ideal S1024x512 .bf16) (w : FVec Ideal S512x512 .bf16) (i : S1024x512.Idx) :
    matmul dot_S1024x512_S512x512_S1024x512_1_0_0_1_n_n none l w (constant S1024x512 .f32 0x00000000#32) i
      = ∑ k : Fin 512, l (ix2 (i 0) k) * w (ix2 k (i 1)) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx i ((ValueIdx.contrEquiv1 dot_S1024x512_S512x512_S1024x512_1_0_0_1_n_n 512 rfl rfl).symm k) = ix2 (i 0) k := funext fun d => Fin.ext (by
    match d with
    | ⟨0, _⟩ => exact feat_lhs_0 _ _
    | ⟨1, _⟩ => exact (feat_lhs_1 _ _).trans hk)
  have er : dot_S1024x512_S512x512_S1024x512_1_0_0_1_n_n.rhsIdx i ((ValueIdx.contrEquiv1 dot_S1024x512_S512x512_S1024x512_1_0_0_1_n_n 512 rfl rfl).symm k) = ix2 k (i 1) := funext fun d => Fin.ext (by
    match d with
    | ⟨0, _⟩ => exact (feat_rhs_0 _ _).trans hk
    | ⟨1, _⟩ => exact feat_rhs_1 _ _)
  rw [el, er]
  rfl

/-! ## The stages at an entry -/

/-- Entry `(n, h)` of the stages of a slice. -/
theorem stages_apply (xs : FVec Ideal S1024x512 .f32) (a : FVec Ideal S1024x1024 .bf16) (w : FVec Ideal S512x512 .bf16)
    (b : FVec Ideal S1x512 .f32) (j : S1024x512.Idx) :
    stages (F := Ideal) xs a w b j
      = (∑ k : Fin 512, (∑ n' : Fin 1024, a (ix2 (j 0) n') * xs (ix2 n' k)) * w (ix2 k (j 1))) + b (ix2 (0 : Fin 1) (j 1)) := by
  unfold stages
  show matmul dot_S1024x512_S512x512_S1024x512_1_0_0_1_n_n none
      (truncf .bf16 (matmul dot_S1024x1024_S1024x512_S1024x512_1_0_0_1_n_n none a (truncf .bf16 xs bitsLt_bf16_f32) (constant S1024x512 .f32 0x00000000#32)) bitsLt_bf16_f32)
      w (constant S1024x512 .f32 0x00000000#32) j + broadcastTo S1024x512 b broadcasts_S1x512_S1024x512 j = _
  rw [feat_apply, broadcastTo_apply b broadcasts_S1x512_S1024x512 j (ix2 (0 : Fin 1) (j 1)) (fun d => match d with
    | ⟨0, _⟩ => by show (0 : ℕ) = if (1 : ℕ) = 1 then 0 else _; rw [if_pos rfl]
    | ⟨1, _⟩ => by show (j 1).val = if (512 : ℕ) = 1 then 0 else (j 1).val; rw [if_neg (by decide)])]
  refine congrArg (· + b (ix2 (0 : Fin 1) (j 1))) (Finset.sum_congr rfl fun k _ => ?_)
  refine congrArg (· * w (ix2 k (j 1))) ?_
  show matmul dot_S1024x1024_S1024x512_S1024x512_1_0_0_1_n_n none a (truncf .bf16 xs bitsLt_bf16_f32) (constant S1024x512 .f32 0x00000000#32) (ix2 (j 0) k) = _
  rw [adj_apply]
  rfl

/-- So the first store's value at `(0, n, h)`, of a slice `x` with a unit leading axis. -/
theorem first_apply (x : Vec Ideal S1x1024x512 .f32) (a : Vec Ideal S1024x1024 .bf16) (w : Vec Ideal S512x512 .bf16)
    (b : Vec Ideal S1x512 .f32) (z : S1x1024x512.Idx) :
    k0_pay2 (F := Ideal) x a w b z
      = (∑ k : Fin 512, (∑ n' : Fin 1024, a (ix2 (z 1) n') * x (ix3 (0 : Fin 1) n' k)) * w (ix2 k (z 2))) + b (ix2 (0 : Fin 1) (z 2)) := by
  have hz0 : (z 0).val = 0 := by have h : (z 0).val < 1 := (z 0).isLt; omega
  rw [first_eq]
  refine (shapeCast_apply _ shapeCasts_S1024x512_S1x1024x512 z (ix2 (z 1) (z 2)) ?_).trans ?_
  · rewrite [Shape.rowMajor_val_two, Shape.rowMajor_val_three]
    show (z 1).val * 512 + (z 2).val = ((z 0).val * 1024 + (z 1).val) * 512 + (z 2).val
    rw [hz0]; omega
  · rw [stages_apply, shapeCast_self, shapeCast_self, shapeCast_self]
    have ex : ∀ (n' : Fin 1024) (k : Fin 512), shapeCast S1024x512 x shapeCasts_S1x1024x512_S1024x512 (ix2 n' k) = x (ix3 (0 : Fin 1) n' k) := fun n' k =>
      shapeCast_apply x shapeCasts_S1x1024x512_S1024x512 _ (ix3 (0 : Fin 1) n' k) (by
        rewrite [Shape.rowMajor_val_three, Shape.rowMajor_val_two]
        show (0 * 1024 + n'.val) * 512 + k.val = n'.val * 512 + k.val
        omega)
    simp only [ex]

end Cert.KernelIdeal.Slices

end
-- ==== Proof.Spec.lean ====
/-
  The graph-convolution layer as ONE function of its four argument arrays, entry by entry, over the extended reals:

      layer x a w bias (b, t, n, h) = (∑ k, (∑ n', a (n, n') · x (b, t, n', k)) · w (k, h)) + bias h

  — the adjacency acts on the node axis, then the weight on the feature axis, then the bias is added. The inner sum
  is taken first and the outer sum over its products second; both programs nest the two sums this way, so no
  law of the extended reals beyond the sums themselves is used (no distributivity, hence no finiteness).

  `layerSlices` is the same layer on the 48 = 4 · 12 slices `(b, t)` laid out along one leading axis, with the bias
  as a one-row matrix: the arrangement one of the programs computes in. `reshape_layerSlices` says the two agree
  through the row-major re-indexing `s = 12 b + t`.
-/
import Idealize.ShloMosaic.PureOps.Ideal
import Idealize.ShloMosaic.Lib.ValueIdx
import Idealize.ShloMosaic.Lib.Pipeline.Value

noncomputable section

open scoped BigOperators

namespace Cert.GcnSpec

open Idealize.ShloMosaic Idealize.ShloMosaic.ValueIdx

/-- Inputs and result: batch × time × nodes × features. -/
abbrev Sbtnd : Shape := ⟨4, ![4, 12, 1024, 512]⟩
/-- The adjacency: nodes × nodes. -/
abbrev Snn : Shape := ⟨2, ![1024, 1024]⟩
/-- The weight: features × hidden. -/
abbrev Sdh : Shape := ⟨2, ![512, 512]⟩
/-- The bias: hidden. -/
abbrev Sh : Shape := ⟨1, ![512]⟩
/-- The 48 slices along one axis: slices × nodes × features. -/
abbrev Ssnd : Shape := ⟨3, ![48, 1024, 512]⟩
/-- The bias as a one-row matrix. -/
abbrev S1h : Shape := ⟨2, ![1, 512]⟩

/-- The layer at entry `(b, t, n, h)`: the adjacency row `n` against column `k` of slice `(b, t)`, those 512 numbers
    against column `h` of the weight, plus the bias at `h`. -/
def layer (x : Sbtnd.Idx → EReal) (a : Snn.Idx → EReal) (w : Sdh.Idx → EReal) (bias : Sh.Idx → EReal) : Sbtnd.Idx → EReal :=
  fun i => (∑ k : Fin 512, (∑ n' : Fin 1024, a (ix2 (i 2) n') * x (ix4 (i 0) (i 1) n' k)) * w (ix2 k (i 3))) + bias (ix1 (i 3))

/-- The same on slices along one axis: entry `(s, n, h)`. -/
def layerSlices (xs : Ssnd.Idx → EReal) (a : Snn.Idx → EReal) (w : Sdh.Idx → EReal) (b2 : S1h.Idx → EReal) : Ssnd.Idx → EReal :=
  fun j => (∑ k : Fin 512, (∑ n' : Fin 1024, a (ix2 (j 1) n') * xs (ix3 (j 0) n' k)) * w (ix2 k (j 2))) + b2 (ix2 (0 : Fin 1) (j 2))

/-- Slice `s = 12 b + t` of the re-laid input is slice `(b, t)` of the input, the one-row bias is the bias, and
    entry `(b, t, n, h)` of the re-laid result is entry `(12 b + t, n, h)`: the layer on slices, re-laid, is the layer. -/
theorem reshape_layerSlices (x : Sbtnd.Idx → EReal) (a : Snn.Idx → EReal) (w : Sdh.Idx → EReal) (bias : Sh.Idx → EReal)
    (h1 : Sbtnd.ShapeCasts Ssnd) (h2 : Sh.ShapeCasts S1h) (h3 : Ssnd.ShapeCasts Sbtnd) :
    shapeCast Sbtnd (layerSlices (shapeCast Ssnd x h1) a w (shapeCast S1h bias h2)) h3 = layer x a w bias := by
  funext i
  have hi0 : (i 0).val < 4 := (i 0).isLt
  have hi1 : (i 1).val < 12 := (i 1).isLt
  have hi2 : (i 2).val < 1024 := (i 2).isLt
  have hi3 : (i 3).val < 512 := (i 3).isLt
  have hs : (i 0).val * 12 + (i 1).val < 48 := by omega
  refine (shapeCast_apply _ h3 i (ix3 ⟨(i 0).val * 12 + (i 1).val, hs⟩ (i 2) (i 3)) ?_).trans ?_
  · rewrite [Shape.rowMajor_val_three, Shape.rowMajor_val_four]
    show (((i 0).val * 12 + (i 1).val) * 1024 + (i 2).val) * 512 + (i 3).val = (((i 0).val * 12 + (i 1).val) * 1024 + (i 2).val) * 512 + (i 3).val
    rfl
  · unfold layerSlices layer
    show (∑ k : Fin 512, (∑ n' : Fin 1024, a (ix2 (i 2) n') * shapeCast Ssnd x h1 (ix3 ⟨(i 0).val * 12 + (i 1).val, hs⟩ n' k)) * w (ix2 k (i 3)))
        + shapeCast S1h bias h2 (ix2 (0 : Fin 1) (i 3)) = _
    have ex : ∀ (n' : Fin 1024) (k : Fin 512), shapeCast Ssnd x h1 (ix3 ⟨(i 0).val * 12 + (i 1).val, hs⟩ n' k) = x (ix4 (i 0) (i 1) n' k) := fun n' k =>
      shapeCast_apply x h1 _ (ix4 (i 0) (i 1) n' k) (by
        rewrite [Shape.rowMajor_val_four, Shape.rowMajor_val_three]
        show (((i 0).val * 12 + (i 1).val) * 1024 + n'.val) * 512 + k.val = (((i 0).val * 12 + (i 1).val) * 1024 + n'.val) * 512 + k.val
        rfl)
    have eb : shapeCast S1h bias h2 (ix2 (0 : Fin 1) (i 3)) = bias (ix1 (i 3)) :=
      shapeCast_apply bias h2 _ (ix1 (i 3)) (by
        rewrite [Shape.rowMajor_val_one, Shape.rowMajor_val_two]
        show (i 3).val = 0 * 512 + (i 3).val
        omega)
    rw [eb]
    simp only [ex]

end Cert.GcnSpec

end
-- ==== Proof.KernelBlock.lean ====
/-
  What the kernel leaves in one output block, and so in its whole result array.

  The grid is 6 × 2. At point `(g, j)` the body reads slices `4 j … 4 j + 3` of the input block (slices `8 g … 8 g + 7` of
  the 48), puts each through the stages of one slice, and stores the four results as the four slices of its output block,
  which is block `2 g + j` of four slices of the result: slice `s` of the block is slice `8 g + 4 j + s` of the 48 on both
  sides. The adjacency, the weight and the bias row are whole-array blocks at every point. So every block written back is
  the restriction of ONE function of the arrays the region finds, the layer on slices, and the blocks tile the result.
-/
import proofs.«127331_g62569083568837_cont_9to1_m_642_22_alg».proof.Proof.Gen.KernelIdeal.Frame
import proofs.«127331_g62569083568837_cont_9to1_m_642_22_alg».proof.Proof.KernelSlices
import proofs.«127331_g62569083568837_cont_9to1_m_642_22_alg».proof.Proof.Spec
import Idealize.ShloMosaic.Lib.Pipeline.Value
import Idealize.ShloMosaic.Lib.Tactic

set_option maxRecDepth 16384

noncomputable section

open scoped BigOperators

namespace Cert.KernelIdeal.Block

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Slices Cert.GcnSpec

/-! ## One output block -/

/-- Slice `s` of the output block at grid column `j` (0 or 1) comes from slice `4 j + s` of the input block's eight. -/
def sliceOf (j : ℕ) (s : Fin 4) : Fin 8 := ⟨(4 * j + s.val) % 8, Nat.mod_lt _ (by decide)⟩

/-- The output block at grid column `j`, entry `(s, n, h)`: slice `4 j + s` of the input block through the stages. -/
def blockOut (xb : Vec Ideal S8x1024x512 .f32) (a : Vec Ideal S1024x1024 .bf16) (w : Vec Ideal S512x512 .bf16) (b : Vec Ideal S1x512 .f32)
    (j : ℕ) : Vec Ideal S4x1024x512 .f32 :=
  fun y => (∑ k : Fin 512, (∑ n' : Fin 1024, a (ix2 (y 1) n') * xb (ix3 (sliceOf j (y 0)) n' k)) * w (ix2 k (y 2))) + b (ix2 (0 : Fin 1) (y 2))

/-- One store: the value of slice `s`, loaded at slice offset `4 j + s` of the input block, is slice `s` of `blockOut`. -/
theorem store_eq (xb : Vec Ideal S8x1024x512 .f32) (a : Vec Ideal S1024x1024 .bf16) (w : Vec Ideal S512x512 .bf16) (b : Vec Ideal S1x512 .f32)
    (j : ℕ) (hj : j < 2) (s : Fin 4) (off : Fin 3 → ℕ) (hoff : off = ![4 * j + s.val, 0, 0])
    (inb : ∀ d, off d + S1x1024x512.size d ≤ S8x1024x512.size d)
    (off' : Fin 3 → ℕ) (hoff' : off' = ![s.val, 0, 0]) (inb' : ∀ d, off' d + S1x1024x512.size d ≤ S4x1024x512.size d)
    (z : S1x1024x512.Idx) :
    k0_pay2 (F := Ideal) (View.ld xb (Rect.unit (s := S8x1024x512) off S1x1024x512.size inb)) a w b z
      = blockOut xb a w b j ((Rect.unit (s := S4x1024x512) off' S1x1024x512.size inb').emb z) := by
  subst hoff hoff'
  have hz0 : (z 0).val = 0 := by have h : (z 0).val < 1 := (z 0).isLt; omega
  have e0 : ((Rect.unit (s := S4x1024x512) ![s.val, 0, 0] S1x1024x512.size inb').emb z 0).val = s.val := by
    show s.val + 1 * (z 0).val = s.val; omega
  have e1 : (Rect.unit (s := S4x1024x512) ![s.val, 0, 0] S1x1024x512.size inb').emb z 1 = z 1 := Fin.ext (by
    show 0 + 1 * (z 1).val = (z 1).val; omega)
  have e2 : (Rect.unit (s := S4x1024x512) ![s.val, 0, 0] S1x1024x512.size inb').emb z 2 = z 2 := Fin.ext (by
    show 0 + 1 * (z 2).val = (z 2).val; omega)
  rw [first_apply]
  unfold blockOut
  rw [e1, e2]
  have ex : ∀ (n' : Fin 1024) (k : Fin 512),
      View.ld xb (Rect.unit (s := S8x1024x512) ![4 * j + s.val, 0, 0] S1x1024x512.size inb) (ix3 (0 : Fin 1) n' k)
        = xb (ix3 (sliceOf j ((Rect.unit (s := S4x1024x512) ![s.val, 0, 0] S1x1024x512.size inb').emb z 0)) n' k) := fun n' k =>
    congrArg xb (funext fun d => Fin.ext (by
      match d with
      | ⟨0, _⟩ => show 4 * j + s.val + 1 * 0 = (4 * j + ((Rect.unit (s := S4x1024x512) ![s.val, 0, 0] S1x1024x512.size inb').emb z 0).val) % 8; rw [e0]; have := s.isLt; omega
      | ⟨1, _⟩ => show 0 + 1 * n'.val = n'.val; omega
      | ⟨2, _⟩ => show 0 + 1 * k.val = k.val; omega))
  simp only [ex]

theorem hz2 : (![0, 0] : Fin 2 → Nat) = fun _ => 0 := funext fun a => by fin_cases a <;> rfl

/-- What the body leaves in its output block at grid point `i`, from the four blocks it is called with. -/
theorem out_eq (c : Dev nD) (i : grid0.Coords) (arg2 : Memref sig .tc .vmem S8x1024x512 .f32) (harg2 : arg2.IsWhole)
    (arg3 : Memref sig .tc .vmem S1024x1024 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S4x1024x512 .f32) (harg6 : arg6.IsWhole)
    (x0 : Vec Ideal S8x1024x512 .f32) (x1 : Vec Ideal S1024x1024 .bf16) (x2 : Vec Ideal S512x512 .bf16) (x3 : Vec Ideal S1x512 .f32) :
    out0_A_4 (F := Ideal) c i arg2 harg2 arg3 harg3 arg4 harg4 arg5 harg5 arg6 harg6 x0 x1 x2 x3 = blockOut x0 x1 x2 x3 (i 1).val := by
  unfold out0_A_4
  rw [View.read_writes_eq_canon _ _ _ (cover0_A_4 c i arg2 harg2 arg3 harg3 arg4 harg4 arg5 harg5 arg6 harg6 x0 x1 x2 x3)]
  funext y
  refine View.canon_apply_of_pieces (blockOut x0 x1 x2 x3 (i 1).val) _ ?_ y
    (cover0_A_4 c i arg2 harg2 arg3 harg3 arg4 harg4 arg5 harg5 arg6 harg6 x0 x1 x2 x3 y)
  unfold kernelRun0_A
  dsimp only
  sl_unfold_words
  intro p hp z
  simp only [List.mem_cons, List.mem_nil_iff, or_false] at hp
  rcases hp with rfl | rfl | rfl | rfl
  · dsimp only
    simp only [View.readAt_eq_ld, harg2.read_unread, harg3.read_unread, harg4.read_unread, harg5.read_unread,
      View.ld_unit_zero (S := S1024x1024) hz2, View.ld_unit_zero (S := S512x512) hz2, View.ld_unit_zero (S := S1x512) hz2]
    rw [fourth_eq]
    exact store_eq x0 x1 x2 x3 (i 1).val (i 1).isLt 3 _ (k0_off1_eq i 3) _ _ rfl _ z
  · dsimp only
    simp only [View.readAt_eq_ld, harg2.read_unread, harg3.read_unread, harg4.read_unread, harg5.read_unread,
      View.ld_unit_zero (S := S1024x1024) hz2, View.ld_unit_zero (S := S512x512) hz2, View.ld_unit_zero (S := S1x512) hz2]
    rw [third_eq]
    exact store_eq x0 x1 x2 x3 (i 1).val (i 1).isLt 2 _ (k0_off1_eq i 2) _ _ rfl _ z
  · dsimp only
    simp only [View.readAt_eq_ld, harg2.read_unread, harg3.read_unread, harg4.read_unread, harg5.read_unread,
      View.ld_unit_zero (S := S1024x1024) hz2, View.ld_unit_zero (S := S512x512) hz2, View.ld_unit_zero (S := S1x512) hz2]
    rw [second_eq]
    exact store_eq x0 x1 x2 x3 (i 1).val (i 1).isLt 1 _ (k0_off1_eq i 1) _ _ rfl _ z
  · dsimp only
    simp only [View.readAt_eq_ld, harg2.read_unread, harg3.read_unread, harg4.read_unread, harg5.read_unread,
      View.ld_unit_zero (S := S1024x1024) hz2, View.ld_unit_zero (S := S512x512) hz2, View.ld_unit_zero (S := S1x512) hz2]
    exact store_eq x0 x1 x2 x3 (i 1).val (i 1).isLt 0 _ (k0_off1_eq i 0) _ _ rfl _ z

end Cert.KernelIdeal.Block

end
-- ==== Proof.KernelArray.lean ====
/-
  The kernel's result array, whole: every output block is a block of the layer on slices, and the blocks tile the array.

  At grid point `t = (g, j)` the input window holds block `g` of eight slices and the output window block `2 g + j` of four;
  `8 g + 4 j = 4 (2 g + j)`, so slice `s` of the output block is computed from slice `4 (2 g + j) + s` of the 48, which is
  where it is written. The other three windows hold their whole arrays at every point. The twelve output blocks are the
  twelve groups of four consecutive slices: each index of the array lies in the block of its slice's quotient by four.
-/
import proofs.«127331_g62569083568837_cont_9to1_m_642_22_alg».proof.Proof.KernelBlock

set_option maxRecDepth 16384

noncomputable section

open scoped BigOperators

namespace Cert.KernelIdeal.Arr

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Block Cert.GcnSpec

variable (m : (ℓ : Loc nD τ sig) → Buf (Elt Ideal) ℓ) (ρ : Dev nD → PrngReg)

/-! ## The arrays the region finds and the blocks the body is called with, at their literal types -/

/-- The 48 slices. -/
abbrev xarr (c : Dev nD) : Vec Ideal S48x1024x512 .f32 := V m c main_v0
/-- The adjacency. -/
abbrev aarr (c : Dev nD) : Vec Ideal S1024x1024 .bf16 := V m c main_v1
/-- The weight. -/
abbrev warr (c : Dev nD) : Vec Ideal S512x512 .bf16 := V m c main_v2
/-- The bias row. -/
abbrev barr (c : Dev nD) : Vec Ideal S1x512 .f32 := V m c main_v3

/-- The input block of eight slices at point `t`. -/
abbrev xblk (c : Dev nD) (t : Fin cfg0.N) : Vec Ideal S8x1024x512 .f32 := iblk m c 0 t
abbrev ablk (c : Dev nD) (t : Fin cfg0.N) : Vec Ideal S1024x1024 .bf16 := iblk m c 1 t
abbrev wblk (c : Dev nD) (t : Fin cfg0.N) : Vec Ideal S512x512 .bf16 := iblk m c 2 t
abbrev bblk (c : Dev nD) (t : Fin cfg0.N) : Vec Ideal S1x512 .f32 := iblk m c 3 t

/-- What the region leaves in its result array: the layer on slices, of the arrays it finds. -/
abbrev regionOut (c : Dev nD) : Vec Ideal S48x1024x512 .f32 := layerSlices (xarr m c) (aarr m c) (warr m c) (barr m c)

/-! ## The index maps over the grid -/

/-- Decided over the twelve points: the input block's first slice plus four times the grid column is the output block's
    first slice; every other block index is zero; the output's block index is below twelve. -/
theorem idx_facts : ∀ t : Fin cfg0.N,
    win0_0.index t (0 : Fin 3) * 8 + 4 * (grid0.coords t 1).val = win0_4.index t (0 : Fin 3) * 4
    ∧ (grid0.coords t 1).val < 2
    ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 3) = 0 ∧ win0_4.index t (2 : Fin 3) = 0 ∧ win0_4.index t (0 : Fin 3) ≤ 11 :=
  (by decide +kernel : ∀ t : Fin grid0.N, _)

/-- Every group of four slices is some point's output block. -/
theorem idx_onto : ∀ q : Fin 12, ∃ t : Fin cfg0.N, win0_4.index t (0 : Fin 3) = q.val :=
  (by decide +kernel : ∀ q : Fin 12, ∃ t : Fin grid0.N, win0_4.index t (0 : Fin 3) = q.val)

/-! ## The blocks read off the arrays -/

/-- Slice `r` of the input block at `t` is slice `8 g + r` of the 48. -/
theorem xblk_apply (c : Dev nD) (t : Fin cfg0.N) (r : Fin 8) (n' : Fin 1024) (k : Fin 512) (g : Fin 48)
    (hg : g.val = win0_0.index t (0 : Fin 3) * 8 + r.val) :
    xblk m c t (ix3 r n' k) = xarr m c (ix3 g n' k) := by
  obtain ⟨_, _, e1, e2, _⟩ := idx_facts t
  show V m c main_v0 (((cfg0.win 0).blk t).view.emb (ix3 r n' k)) = V m c main_v0 (ix3 g n' k)
  refine congrArg (V m c main_v0) (funext fun d => Fin.ext ?_)
  match d with
  | ⟨0, _⟩ => show win0_0.index t (0 : Fin 3) * 8 + 1 * r.val = g.val; omega
  | ⟨1, _⟩ => show win0_0.index t (1 : Fin 3) * 1024 + 1 * n'.val = n'.val; omega
  | ⟨2, _⟩ => show win0_0.index t (2 : Fin 3) * 512 + 1 * k.val = k.val; omega

/-- The adjacency's block is the adjacency. -/
theorem ablk_eq (c : Dev nD) (t : Fin cfg0.N) : ablk m c t = aarr m c := by
  obtain ⟨_, _, _, _, e0, e1, _⟩ := idx_facts t
  funext j
  show V m c main_v1 (((cfg0.win 1).blk t).view.emb j) = V m c main_v1 j
  refine congrArg (V m c main_v1) (funext fun d => Fin.ext ?_)
  match d with
  | ⟨0, _⟩ => show win0_1.index t (0 : Fin 2) * 1024 + 1 * (j 0).val = (j 0).val; omega
  | ⟨1, _⟩ => show win0_1.index t (1 : Fin 2) * 1024 + 1 * (j 1).val = (j 1).val; omega

/-- The weight's block is the weight. -/
theorem wblk_eq (c : Dev nD) (t : Fin cfg0.N) : wblk m c t = warr m c := by
  obtain ⟨_, _, _, _, _, _, e0, e1, _⟩ := idx_facts t
  funext j
  show V m c main_v2 (((cfg0.win 2).blk t).view.emb j) = V m c main_v2 j
  refine congrArg (V m c main_v2) (funext fun d => Fin.ext ?_)
  match d with
  | ⟨0, _⟩ => show win0_2.index t (0 : Fin 2) * 512 + 1 * (j 0).val = (j 0).val; omega
  | ⟨1, _⟩ => show win0_2.index t (1 : Fin 2) * 512 + 1 * (j 1).val = (j 1).val; omega

/-- The bias row's block is the bias row. -/
theorem bblk_eq (c : Dev nD) (t : Fin cfg0.N) : bblk m c t = barr m c := by
  obtain ⟨_, _, _, _, _, _, _, _, e0, e1, _⟩ := idx_facts t
  funext j
  show V m c main_v3 (((cfg0.win 3).blk t).view.emb j) = V m c main_v3 j
  refine congrArg (V m c main_v3) (funext fun d => Fin.ext ?_)
  match d with
  | ⟨0, _⟩ => show win0_3.index t (0 : Fin 2) * 1 + 1 * (j 0).val = (j 0).val; omega
  | ⟨1, _⟩ => show win0_3.index t (1 : Fin 2) * 512 + 1 * (j 1).val = (j 1).val; omega

/-! ## What a point writes back -/

/-- The block point `t` writes back is block `t` of the layer on slices. -/
theorem flushed_eq (c : Dev nD) (t : Fin cfg0.N) :
    (dats m 0 c).flushed 4 t = ((cfg0.win 4).blk t).view.read (Elt Ideal) (regionOut m c) := by
  show (cfg0.win 4).cut (grid0.coords t) ((dats m 0 c).after 4 t) = _
  rw [after0_4]
  unfold outsAt0
  have hout := out_eq c (grid0.coords t) (ms0_0 t) (hs0_0 t) (ms0_1 t) (hs0_1 t) (ms0_2 t) (hs0_2 t) (ms0_3 t) (hs0_3 t) (ms0_4 t) (hs0_4 t)
    (xblk m c t) (ablk m c t) (wblk m c t) (bblk m c t)
  rw [ablk_eq, wblk_eq, bblk_eq] at hout
  obtain ⟨e0, hj, _, _, _, _, _, _, _, _, o1, o2, _⟩ := idx_facts t
  funext y
  show out0_A_4 (F := Ideal) c (grid0.coords t) (ms0_0 t) (hs0_0 t) (ms0_1 t) (hs0_1 t) (ms0_2 t) (hs0_2 t) (ms0_3 t) (hs0_3 t) (ms0_4 t) (hs0_4 t)
      (xblk m c t) (ablk m c t) (wblk m c t) (bblk m c t) y = regionOut m c (((cfg0.win 4).blk t).view.emb y)
  rw [ablk_eq, wblk_eq, bblk_eq, hout]
  have hy0 : (y 0).val < 4 := (y 0).isLt
  have q0 : ((((cfg0.win 4).blk t).view.emb y) 0).val = win0_4.index t (0 : Fin 3) * 4 + (y 0).val := by
    show win0_4.index t (0 : Fin 3) * 4 + 1 * (y 0).val = _; omega
  have q1 : (((cfg0.win 4).blk t).view.emb y) 1 = y 1 := Fin.ext (by
    show win0_4.index t (1 : Fin 3) * 1024 + 1 * (y 1).val = (y 1).val; omega)
  have q2 : (((cfg0.win 4).blk t).view.emb y) 2 = y 2 := Fin.ext (by
    show win0_4.index t (2 : Fin 3) * 512 + 1 * (y 2).val = (y 2).val; omega)
  unfold blockOut
  show (∑ k : Fin 512, (∑ n' : Fin 1024, aarr m c (ix2 (y 1) n') * xblk m c t (ix3 (sliceOf (grid0.coords t 1).val (y 0)) n' k)) * warr m c (ix2 k (y 2)))
      + barr m c (ix2 (0 : Fin 1) (y 2))
    = (∑ k : Fin 512, (∑ n' : Fin 1024, aarr m c (ix2 ((((cfg0.win 4).blk t).view.emb y) 1) n') * xarr m c (ix3 ((((cfg0.win 4).blk t).view.emb y) 0) n' k))
        * warr m c (ix2 k ((((cfg0.win 4).blk t).view.emb y) 2))) + barr m c (ix2 (0 : Fin 1) ((((cfg0.win 4).blk t).view.emb y) 2))
  rw [q1, q2]
  have ex : ∀ (n' : Fin 1024) (k : Fin 512), xblk m c t (ix3 (sliceOf (grid0.coords t 1).val (y 0)) n' k)
      = xarr m c (ix3 ((((cfg0.win 4).blk t).view.emb y) 0) n' k) := fun n' k =>
    xblk_apply m c t _ n' k _ (by
      rw [q0]
      show win0_4.index t (0 : Fin 3) * 4 + (y 0).val = win0_0.index t (0 : Fin 3) * 8 + (4 * (grid0.coords t 1).val + (y 0).val) % 8
      omega)
  simp only [ex]

/-! ## The blocks tile the array -/

/-- An index of the array is in point `t`'s block iff each coordinate is in the block's range on its axis. -/
theorem mem_blk (t : Fin cfg0.N) (i : S48x1024x512.Idx) :
    i ∈ ((cfg0.win 4).blk t).view.set ↔ ∀ a : Fin 3, win0_4.index t a * S4x1024x512.size a ≤ (i a).val ∧ (i a).val < win0_4.index t a * S4x1024x512.size a + S4x1024x512.size a := by
  show i ∈ ((View.whole main_v4).slice (win0_4.rect t)).set ↔ _
  rw [View.set_slice_whole, Rect.mem_set_unit]
  exact Iff.rfl

/-- Every index lies in the block of its slice's group of four. -/
theorem covered (i : S48x1024x512.Idx) :
    ∃ t : Fin cfg0.N, (cfg0.win 4).flush t = true ∧ i ∈ ((cfg0.win 4).blk t).view.set := by
  have hi0 : (i 0).val < 48 := (i 0).isLt
  have hi1 : (i 1).val < 1024 := (i 1).isLt
  have hi2 : (i 2).val < 512 := (i 2).isLt
  obtain ⟨t, ht⟩ := idx_onto ⟨(i 0).val / 4, by omega⟩
  have q0 : win0_4.index t (0 : Fin 3) = (i 0).val / 4 := ht
  obtain ⟨_, _, _, _, _, _, _, _, _, _, o1, o2, _⟩ := idx_facts t
  refine ⟨t, flush0_4 t, ?_⟩
  rw [mem_blk]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 512 ≤ (i 2).val ∧ (i 2).val < win0_4.index t (2 : Fin 3) * 512 + 512; omega

/-- The result array after the run. -/
theorem final (c : Dev nD) : (dats m 0 c).arrAt 4 cfg0.N = regionOut m c :=
  (dats m 0 c).arrAt_eq_of_cover 4 (regionOut m c) (fun t _ => flushed_eq m c t) covered

end Cert.KernelIdeal.Arr

end
-- ==== Proof.KernelRun.lean ====
/-
  The idealized kernel's run, with its result named: the layer of the four argument arrays.

  Before the region the host re-lays the input as 48 slices, changes the float format of the adjacency and the weight
  (the identity over the extended reals) and re-lays the bias as a one-row matrix; after it, the host re-lays the 48
  result slices as batch × time × nodes × features. The region leaves the layer on slices of what it finds, so the
  result is the layer on slices of the re-laid arguments, re-laid: the layer.
-/
import proofs.«127331_g62569083568837_cont_9to1_m_642_22_alg».proof.Proof.KernelArray
import Idealize.ShloMosaic.Lib.StableHlo.Run

noncomputable section

namespace Cert.KernelIdeal.Run

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Arr Cert.GcnSpec

variable (m : (ℓ : Loc nD τ sig) → Buf (Elt Ideal) ℓ) (ρ : Dev nD → PrngReg)

/-! ## What the host lines before the region leave -/

/-- The 48 slices are the input re-laid. -/
theorem xarr_eq (c : Dev nD) :
    xarr m c = shapeCast S48x1024x512 (m ((c : Thread nD τ).loc main_arg0)) shapeCasts_S4x12x1024x512_S48x1024x512 := by
  show StableHlo.after hostOps0 (fun b => m (c, b)) (Proc.devRef .tc main_v0) = _
  after_results
  rfl

/-- The adjacency the region finds is the argument (a change of format). -/
theorem aarr_eq (c : Dev nD) : aarr m c = m ((c : Thread nD τ).loc main_arg1) := by
  show StableHlo.after hostOps0 (fun b => m (c, b)) (Proc.devRef .tc main_v1) = _
  after_results
  rfl

/-- The weight the region finds is the argument (a change of format). -/
theorem warr_eq (c : Dev nD) : warr m c = m ((c : Thread nD τ).loc main_arg2) := by
  show StableHlo.after hostOps0 (fun b => m (c, b)) (Proc.devRef .tc main_v2) = _
  after_results
  rfl

/-- The bias row is the bias re-laid. -/
theorem barr_eq (c : Dev nD) :
    barr m c = shapeCast S1x512 (m ((c : Thread nD τ).loc main_arg3)) shapeCasts_S512_S1x512 := by
  show StableHlo.after hostOps0 (fun b => m (c, b)) (Proc.devRef .tc main_v3) = _
  after_results
  rfl

/-! ## The result -/

/-- The layer of the launch contents of the four arguments. -/
abbrev result (c : Dev nD) : Buf (Elt Ideal) ((c : Thread nD τ).loc main_v5) :=
  layer (m ((c : Thread nD τ).loc main_arg0)) (m ((c : Thread nD τ).loc main_arg1)) (m ((c : Thread nD τ).loc main_arg2))
    (m ((c : Thread nD τ).loc main_arg3))

/-- What the host line after the region leaves in the result buffer. -/
theorem result_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  rw [show Pipeline.withArrays spec0 c (V0 m c) (fun w => (dats m 0 c).arrAt w cfg0.N) (Proc.devRef .tc main_v4) = regionOut m c from
    (Pipeline.withArrays_arr spec0 launch0.win.arr_inj c _ _ 4).trans (final m c)]
  show shapeCast S4x12x1024x512 (layerSlices (xarr m c) (aarr m c) (warr m c) (barr m c)) shapeCasts_S48x1024x512_S4x12x1024x512 = _
  rw [xarr_eq, aarr_eq, warr_eq, barr_eq]
  exact reshape_layerSlices _ _ _ _ _ _ _

/-- Every weakly fair execution terminates with the result buffer at the layer of the arguments, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefValue.lean ====
/-
  The reference computes the layer. Its eleven host operations are: the input transposed to nodes × features × batch × time
  and flattened to a 1024 × 24576 matrix; the adjacency times that matrix; the product re-laid back to
  batch × time × nodes × features and flattened to 49152 rows of 512 features; those rows times the weight; the bias
  broadcast over the rows and added; the rows re-laid to batch × time × nodes × features.

  Read at entry `(b, t, n, h)`: the last re-laying reads row `r = (12 b + t) · 1024 + n`, column `h`; the second product
  there is `∑ k, row r at k · w (k, h)`; row `r` at feature `k` is, through the two re-layings and the transpose between them,
  the first product at row `n`, column `(4 k + b) · 12 + t`, which is `∑ n', a (n, n') ·` (the flattened transposed input
  at row `n'` and that column), and that entry is the input at `(b, t, n', k)`. All of the index arithmetic is
  division and remainder by the literal extents.
-/
import proofs.«127331_g62569083568837_cont_9to1_m_642_22_alg».proof.Defs
import proofs.«127331_g62569083568837_cont_9to1_m_642_22_alg».proof.Proof.Gen.ReferenceIdeal.Run
import proofs.«127331_g62569083568837_cont_9to1_m_642_22_alg».proof.Proof.Gen.ReferenceIdeal.Read
import proofs.«127331_g62569083568837_cont_9to1_m_642_22_alg».proof.Proof.Spec

noncomputable section

open scoped BigOperators

namespace Cert.ReferenceIdeal.RefValue

open Idealize.ShloMosaic Idealize.ShloMosaic.ValueIdx Cert.ReferenceIdeal Cert.ReferenceIdeal.Read Cert.GcnSpec

/-- Flat position `((12 b + t) · 1024 + n) · 512 + k` split by the extents 4, 12, 1024, 512 and re-assembled in the
    order nodes, features, batch, time is `((512 n + k) · 4 + b) · 12 + t`. -/
theorem relay_pos (b t n k j0 j1 : ℕ) (hb : b < 4) (ht : t < 12) (hn : n < 1024) (hk : k < 512)
    (hj0 : j0 = (b * 12 + t) * 1024 + n) (hj1 : j1 = k) :
    ((((j0 * 512 + j1) / 512 % 1024) * 512 + (j0 * 512 + j1) % 512) * 4 + (j0 * 512 + j1) / 6291456) * 12 + (j0 * 512 + j1) / 524288 % 12
      = ((n * 512 + k) * 4 + b) * 12 + t := by
  rw [hj0, hj1]
  have h1 : (((b * 12 + t) * 1024 + n) * 512 + k) / 512 = (b * 12 + t) * 1024 + n := by omega
  have h2 : (((b * 12 + t) * 1024 + n) * 512 + k) % 512 = k := by omega
  have h3 : (((b * 12 + t) * 1024 + n) * 512 + k) / 6291456 = b := by omega
  have h4 : (((b * 12 + t) * 1024 + n) * 512 + k) / 524288 = b * 12 + t := by omega
  rw [h1, h2, h3, h4]
  have h5 : ((b * 12 + t) * 1024 + n) % 1024 = n := by omega
  have h6 : (b * 12 + t) % 12 = t := by omega
  rw [h5, h6]

/-- That position is row `n` of a 1024 × 24576 matrix, column `(4 k + b) · 12 + t`. -/
theorem relay_row (b t n k : ℕ) (hb : b < 4) (ht : t < 12) (hk : k < 512) :
    (((n * 512 + k) * 4 + b) * 12 + t) / 24576 = n ∧ (((n * 512 + k) * 4 + b) * 12 + t) % 24576 = (k * 4 + b) * 12 + t := by
  constructor <;> omega

/-- Row `n'`, column `(4 k + b) · 12 + t` of that matrix, split by the extents 1024, 512, 4, 12, is `(n', k, b, t)`. -/
theorem relay_col (b t k n' : ℕ) (hb : b < 4) (ht : t < 12) (hk : k < 512) :
    (n' * 24576 + ((k * 4 + b) * 12 + t)) / 24576 = n' ∧ (n' * 24576 + ((k * 4 + b) * 12 + t)) / 48 % 512 = k
      ∧ (n' * 24576 + ((k * 4 + b) * 12 + t)) / 12 % 4 = b ∧ (n' * 24576 + ((k * 4 + b) * 12 + t)) % 12 = t := by
  have q48 : (n' * 24576 + ((k * 4 + b) * 12 + t)) / 48 = n' * 512 + k := by omega
  have q12 : (n' * 24576 + ((k * 4 + b) * 12 + t)) / 12 = n' * 2048 + (k * 4 + b) := by omega
  refine ⟨by omega, ?_, ?_, by omega⟩
  · rw [q48]; omega
  · rw [q12]; omega

/-- Row `(12 b + t) · 1024 + n` of the flattened re-laid first product, at feature `k`: the adjacency's row `n`
    against column `k` of the input's slice `(b, t)`. -/
theorem rows_apply (x : Sbtnd.Idx → EReal) (a : Snn.Idx → EReal) (b : Fin 4) (t : Fin 12) (n : Fin 1024) (k : Fin 512)
    (j : S49152x512.Idx) (hj0 : (j 0).val = (b.val * 12 + t.val) * 1024 + n.val) (hj1 : (j 1).val = k.val) :
    val_main_v5 (F := Ideal) x a j = ∑ n' : Fin 1024, a (ix2 n n') * x (ix4 b t n' k) := by
  have hP := relay_pos b.val t.val n.val k.val (j 0).val (j 1).val b.isLt t.isLt n.isLt k.isLt hj0 hj1
  obtain ⟨hR, hC⟩ := relay_row b.val t.val n.val k.val b.isLt t.isLt k.isLt
  rw [val_main_v5_apply, val_main_v4_apply, val_main_v3_apply, val_main_v2_apply]
  refine Finset.sum_congr rfl fun n' _ => ?_
  obtain ⟨c0, c1, c2, c3⟩ := relay_col b.val t.val k.val n'.val b.isLt t.isLt k.isLt
  rw [val_main_v1_apply, val_main_v0_apply]
  have ea : lidx_main_v2 (idx_main_v3 (idx_main_v4 (idx_main_v5 j))) n' = ix2 n n' := by
    funext d; apply Fin.ext
    match d with
    | ⟨0, _⟩ =>
      show ((((((j 0).val * 512 + (j 1).val) / 512 % 1024) * 512 + ((j 0).val * 512 + (j 1).val) % 512) * 4 + ((j 0).val * 512 + (j 1).val) / 6291456) * 12
          + ((j 0).val * 512 + (j 1).val) / 524288 % 12) / 24576 = n.val
      rw [hP]; exact hR
    | ⟨1, _⟩ => rfl
  have ex : idx_main_v0 (idx_main_v1 (ridx_main_v2 (idx_main_v3 (idx_main_v4 (idx_main_v5 j))) n')) = ix4 b t n' k := by
    funext d; apply Fin.ext
    match d with
    | ⟨0, _⟩ =>
      show (n'.val * 24576 + ((((((j 0).val * 512 + (j 1).val) / 512 % 1024) * 512 + ((j 0).val * 512 + (j 1).val) % 512) * 4 + ((j 0).val * 512 + (j 1).val) / 6291456) * 12
          + ((j 0).val * 512 + (j 1).val) / 524288 % 12) % 24576) / 12 % 4 = b.val
      rw [hP, hC]; exact c2
    | ⟨1, _⟩ =>
      show (n'.val * 24576 + ((((((j 0).val * 512 + (j 1).val) / 512 % 1024) * 512 + ((j 0).val * 512 + (j 1).val) % 512) * 4 + ((j 0).val * 512 + (j 1).val) / 6291456) * 12
          + ((j 0).val * 512 + (j 1).val) / 524288 % 12) % 24576) % 12 = t.val
      rw [hP, hC]; exact c3
    | ⟨2, _⟩ =>
      show (n'.val * 24576 + ((((((j 0).val * 512 + (j 1).val) / 512 % 1024) * 512 + ((j 0).val * 512 + (j 1).val) % 512) * 4 + ((j 0).val * 512 + (j 1).val) / 6291456) * 12
          + ((j 0).val * 512 + (j 1).val) / 524288 % 12) % 24576) / 24576 = n'.val
      rw [hP, hC]; exact c0
    | ⟨3, _⟩ =>
      show (n'.val * 24576 + ((((((j 0).val * 512 + (j 1).val) / 512 % 1024) * 512 + ((j 0).val * 512 + (j 1).val) % 512) * 4 + ((j 0).val * 512 + (j 1).val) / 6291456) * 12
          + ((j 0).val * 512 + (j 1).val) / 524288 % 12) % 24576) / 48 % 512 = k.val
      rw [hP, hC]; exact c1
  rw [ea, ex]

/-- The reference's result, entry by entry, is the layer. -/
theorem result_eq (x : Sbtnd.Idx → EReal) (a : Snn.Idx → EReal) (w : Sdh.Idx → EReal) (bias : Sh.Idx → EReal) :
    val_main_v10 (F := Ideal) x a w bias = layer x a w bias := by
  funext i
  have hi0 : (i 0).val < 4 := (i 0).isLt
  have hi1 : (i 1).val < 12 := (i 1).isLt
  have hi2 : (i 2).val < 1024 := (i 2).isLt
  have hi3 : (i 3).val < 512 := (i 3).isLt
  rw [val_main_v10_apply, val_main_v9_apply, val_main_v6_apply, val_main_v8_apply, val_main_v7_apply]
  unfold layer
  show (∑ k : Fin 512, val_main_v5 (F := Ideal) x a (lidx_main_v6 (idx_main_v10 i) k) * w (ridx_main_v6 (idx_main_v10 i) k))
      + bias (idx_main_v7 (idx_main_v8 (idx_main_v10 i))) = _
  have eb : idx_main_v7 (idx_main_v8 (idx_main_v10 i)) = ix1 (i 3) := by
    funext d; apply Fin.ext
    match d with
    | ⟨0, _⟩ =>
      show ((((i 0).val * 12 + (i 1).val) * 1024 + (i 2).val) * 512 + (i 3).val) % 512 = (i 3).val
      omega
  have ew : ∀ k : Fin 512, ridx_main_v6 (idx_main_v10 i) k = ix2 k (i 3) := fun k => by
    funext d; apply Fin.ext
    match d with
    | ⟨0, _⟩ => rfl
    | ⟨1, _⟩ =>
      show ((((i 0).val * 12 + (i 1).val) * 1024 + (i 2).val) * 512 + (i 3).val) % 512 = (i 3).val
      omega
  have er : ∀ k : Fin 512, val_main_v5 (F := Ideal) x a (lidx_main_v6 (idx_main_v10 i) k)
      = ∑ n' : Fin 1024, a (ix2 (i 2) n') * x (ix4 (i 0) (i 1) n' k) := fun k =>
    rows_apply x a (i 0) (i 1) (i 2) k _
      (by show ((((i 0).val * 12 + (i 1).val) * 1024 + (i 2).val) * 512 + (i 3).val) / 512 = ((i 0).val * 12 + (i 1).val) * 1024 + (i 2).val
          omega)
      rfl
  rw [eb]
  simp only [ew, er]
  rfl

end Cert.ReferenceIdeal.RefValue

end
-- ==== Proof.lean ====
/-
  A graph-convolution layer: `out[b, t] = (A · X[b, t]) · W + bias` for the 48 slices `X[b, t]` (1024 nodes × 512 features)
  of a 4 × 12 × 1024 × 512 input, a 1024 × 1024 adjacency `A`, a 512 × 512 weight `W` and a bias of 512.

  The kernel works on the input's natural layout: it re-lays the input as 48 slices, and for each slice multiplies by the
  adjacency on the node axis, then by the weight on the feature axis, then adds the bias, four slices to a grid point,
  and re-lays the 48 result slices back. The reference instead transposes the input so that the node axis leads, flattens
  everything else into 24576 columns, multiplies by the adjacency once, transposes back, flattens the 49152 rows and
  multiplies by the weight once, and adds the broadcast bias. Over the extended reals both compute, at entry `(b, t, n, h)`,

      (∑ k, (∑ n', A (n, n') · X (b, t, n', k)) · W (k, h)) + bias h

  with the two sums nested the same way, so they are the same function of the arguments with no appeal to any law of the
  extended reals: the kernel's changes of float format are the identity there, its products start from a zero accumulator,
  and everything else is where an entry sits (row-major re-layings, a transpose, blocks of a grid).

    Proof/Spec.lean         the layer as one function, and the same on 48 slices along one axis
    Proof/RefValue.lean     the reference's result, entry by entry, is the layer
    Proof/KernelSlices.lean one slice through the kernel body's three stages
    Proof/KernelBlock.lean  the body's four stores make one output block
    Proof/KernelArray.lean  the blocks written back tile the result array with the layer on slices
    Proof/KernelRun.lean    the host lines around the region: the kernel's result is the layer

  The idealization rewrote no operation, so `preserves` states nothing; the frames are the generated ones, the reference's
  its generated run with the result dropped.
-/
import proofs.«127331_g62569083568837_cont_9to1_m_642_22_alg».proof.Defs
import proofs.«127331_g62569083568837_cont_9to1_m_642_22_alg».proof.Proof.Gen.Kernel
import proofs.«127331_g62569083568837_cont_9to1_m_642_22_alg».proof.Proof.Gen.Kernel.Skeleton
import proofs.«127331_g62569083568837_cont_9to1_m_642_22_alg».proof.Proof.Gen.Kernel.Launch
import proofs.«127331_g62569083568837_cont_9to1_m_642_22_alg».proof.Proof.Gen.Kernel.Points
import proofs.«127331_g62569083568837_cont_9to1_m_642_22_alg».proof.Proof.Gen.Kernel.Frame
import proofs.«127331_g62569083568837_cont_9to1_m_642_22_alg».proof.Proof.Gen.KernelIdeal
import proofs.«127331_g62569083568837_cont_9to1_m_642_22_alg».proof.Proof.Gen.KernelIdeal.Skeleton
import proofs.«127331_g62569083568837_cont_9to1_m_642_22_alg».proof.Proof.Gen.KernelIdeal.Launch
import proofs.«127331_g62569083568837_cont_9to1_m_642_22_alg».proof.Proof.Gen.KernelIdeal.Points
import proofs.«127331_g62569083568837_cont_9to1_m_642_22_alg».proof.Proof.Gen.KernelIdeal.Frame
import proofs.«127331_g62569083568837_cont_9to1_m_642_22_alg».proof.Proof.Gen.ReferenceIdeal
import proofs.«127331_g62569083568837_cont_9to1_m_642_22_alg».proof.Proof.Gen.ReferenceIdeal.Run
import proofs.«127331_g62569083568837_cont_9to1_m_642_22_alg».proof.Proof.Gen.ReferenceIdeal.Read
import proofs.«127331_g62569083568837_cont_9to1_m_642_22_alg».proof.Proof.Gen.Pre_finite_inputs
import proofs.«127331_g62569083568837_cont_9to1_m_642_22_alg».proof.Proof.KernelRun
import proofs.«127331_g62569083568837_cont_9to1_m_642_22_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is eleven host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at the layer of arguments that agree. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
